-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x64_S64x2048x64 : S4x16x2048x64.ShapeCasts S64x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  shapeCasts_S64x2048x64_S4x16x2048x64 : S64x2048x64.ShapeCasts S4x16x2048x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S64x2048x64.size a
  hwx0_3 : ∀ i : grid0.Coords, EltTy.bits .f32 = 32 ∨ (Rect.block (s := S64x2048x64) S1x512x64.size (cc0_transform_3 i) (hinb0_3 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 17
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S4x16x2048x2048, .f32⟩
  | .hbm, ⟨8, _⟩ => ⟨S_, .f32⟩
  | .hbm, ⟨9, _⟩ => ⟨S4x16x2048, .f32⟩
  | .hbm, ⟨10, _⟩ => ⟨S4x16x2048x1, .f32⟩
  | .hbm, ⟨11, _⟩ => ⟨S_, .f32⟩
  | .hbm, ⟨12, _⟩ => ⟨S4x16x2048x1, .f32⟩
  | .hbm, ⟨13, _⟩ => ⟨S4x16x2048x1, .f32⟩
  | .hbm, ⟨14, _⟩ => ⟨S4x16x2048x2048, .f32⟩
  | .hbm, ⟨15, _⟩ => ⟨S4x16x2048x2048, .f32⟩
  | .hbm, ⟨16, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S4x16x2048_S4x16x2048x1_0_1_2 : S4x16x2048.BroadcastsInDim S4x16x2048x1 (![0, 1, 2] : Fin 3 → Fin S4x16x2048x1.rank)
  bcast_S_S4x16x2048x1 : S_.BroadcastsInDim S4x16x2048x1 (![] : Fin 0 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/- The function both programs compute, one query row at a time.

   For a query row `qr` (64 entries) and one head's keys `k` and values `v` (2048 rows of 64 entries each):
   the logit against key row `m` is the inner product of `qr` with that row, times the scale; its weight is the
   logit's square; the normalizer is the sum of the weights over all key rows plus the small constant; and the output
   entry `d` is the sum over key rows of (weight / normalizer) times the value row's entry `d`.
   The scale and the small constant are kept as the binary words both programs print: the same word on both
   sides is never evaluated. -/
import Idealize.ShloMosaic.PureOps.Ideal
import Idealize.ShloMosaic.Lib.ValueIdx

noncomputable section

namespace Cert.PowerAttn

open Idealize.ShloMosaic

/-- The scaled inner product of a query row with key row `m`. -/
def logit (qr : Fin 64 → EReal) (k : Fin 2048 → Fin 64 → EReal) (m : Fin 2048) : EReal :=
  (∑ e : Fin 64, qr e * k m e) * Ideal.ofBits .f32 0x3E000000#32

/-- The unnormalized attention weight: the logit's square. -/
def weight (qr : Fin 64 → EReal) (k : Fin 2048 → Fin 64 → EReal) (m : Fin 2048) : EReal :=
  logit qr k m * logit qr k m

/-- The row's normalizer: the sum of its weights plus the small constant. -/
def normalizer (qr : Fin 64 → EReal) (k : Fin 2048 → Fin 64 → EReal) : EReal :=
  (∑ m : Fin 2048, weight qr k m) + Ideal.ofBits .f32 0x358637BD#32

/-- One output entry: the normalized weights against column `d` of the values. -/
def row (qr : Fin 64 → EReal) (k v : Fin 2048 → Fin 64 → EReal) (d : Fin 64) : EReal :=
  ∑ m : Fin 2048, Ideal.div (weight qr k m) (normalizer qr k) * v m d

/-- The result with batch and head merged into one leading axis of 64: entry (g, n, d) is the row function at
    query row n of head g, against head g's keys and values. -/
def heads (A0 A1 A2 : (⟨3, ![64, 2048, 64]⟩ : Shape).Idx → EReal) : (⟨3, ![64, 2048, 64]⟩ : Shape).Idx → EReal :=
  fun j => row (fun e => A0 (ValueIdx.ix3 (j 0) (j 1) e)) (fun m e => A1 (ValueIdx.ix3 (j 0) m e))
    (fun m e => A2 (ValueIdx.ix3 (j 0) m e)) (j 2)

/-- The result over the [4, 16, 2048, 64] arguments: entry (b, h, n, d) is the row function at query row n of
    batch b and head h, against that head's keys and values. -/
def attn (Q K V : (⟨4, ![4, 16, 2048, 64]⟩ : Shape).Idx → EReal) : (⟨4, ![4, 16, 2048, 64]⟩ : Shape).Idx → EReal :=
  fun i => row (fun e => Q (ValueIdx.ix4 (i 0) (i 1) (i 2) e)) (fun m e => K (ValueIdx.ix4 (i 0) (i 1) m e))
    (fun m e => V (ValueIdx.ix4 (i 0) (i 1) m e)) (i 3)

end Cert.PowerAttn

end
-- ==== Proof.LibKeepdims.lean ====
/- A vector viewed as a one-column array, and a sum over a rank-1 index set: the two index facts a row reduction kept as a
   column (`sum(axis=1, keepdims=True)`) meets. -/
import Idealize.ShloMosaic.Lib.Pipeline.Value
import Idealize.ShloMosaic.Lib.ValueIdx

open Idealize.ShloMosaic Idealize.ShloMosaic.ValueIdx
open scoped BigOperators

namespace Idealize.ShloMosaic.Keepdims

/-- A length-`a` vector viewed as an [a, 1] column reads, at (p, q), the vector at p: both have row-major position p. -/
theorem shapeCast_a_a1_apply {α : Type} {a : ℕ} (x : (⟨1, ![a]⟩ : Shape).Idx → α) (h : (⟨1, ![a]⟩ : Shape).ShapeCasts ⟨2, ![a, 1]⟩)
    (p : Fin a) (q : Fin 1) : shapeCast ⟨2, ![a, 1]⟩ x h (ix2 p q) = x (ix1 p) :=
  shapeCast_apply x h _ _ (by
    have hq : q.val = 0 := by omega
    rw [Shape.rowMajor_val_two, Shape.rowMajor_val_one]
    show p.val = p.val * 1 + q.val
    rw [hq, Nat.mul_one, Nat.add_zero])

/-- An [a, 1] column viewed as a length-`a` vector reads, at p, the column at (p, 0). -/
theorem shapeCast_a1_a_apply {α : Type} {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A sum over a rank-1 index set is the sum over its coordinate. -/
theorem sum_idx1 {M : Type*} [AddCommMonoid M] {n : ℕ} (f : (⟨1, ![n]⟩ : Shape).Idx → M) : ∑ i, f i = ∑ a : Fin n, f (ix1 a) :=
  Fintype.sum_equiv ⟨fun i => i 0, fun a => ix1 a, fun i => (eq_ix1 i).symm, fun _ => rfl⟩ f (fun a => f (ix1 a))
    (fun i => congrArg f (eq_ix1 i))

end Idealize.ShloMosaic.Keepdims
-- ==== Proof.LibColBroadcast.lean ====
/- One column broadcast over many: the index fact a kept row reduction (`sum(axis=1, keepdims=True)`) meets when it is
   spread back over the columns of a matrix. -/
import Idealize.ShloMosaic.Lib.Pipeline.Value
import Idealize.ShloMosaic.Lib.ValueIdx

open Idealize.ShloMosaic Idealize.ShloMosaic.ValueIdx

namespace Idealize.ShloMosaic.ColBroadcast

/-- An `[a, 1]` column broadcast to `[a, b]` reads, at `(p, c)`, the column at row `p`, whatever the column index `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColBroadcast
-- ==== Proof.LibLeadSumDotT.lean ====
/-
  Two readings at an index, over the extended reals, for kernels that sum a grouped operand over its LEADING axis and
  multiply a row block against the ROWS of a weight block (`x @ W.T`):

  * `sumLead3_apply` / `sumLead2_apply`: a `vector.multi_reduction <add>` over axis 0 of a rank-3 (rank-2) vector,
    read at `(r, k)` (at `q`), is the sum over `g` of the entries `(g, r, k)` (`(g, q)`);
  * `matmulT_apply`: a `tpu.matmul` into the zero accumulator whose dimension numbers contract axis 1 of BOTH operands
    (`DotDims.transposedRhs M K N`: lhs [M, K], rhs [N, K], out [M, N]), read at `(p, q)`, is
    `Σ k : Fin K, lhs (p, k) * rhs (q, k)`. A printed record `dot_S<M>x<K>_S<N>x<K>_S<M>x<N>_1_1_0_0_n_n` unifies with
    `DotDims.transposedRhs M K N` by unfolding, so the lemma applies to the printed payload by `exact` / `refine … .trans`.
-/
import Idealize.ShloMosaic.PureOps.Ideal.Laws
import Idealize.ShloMosaic.Lib.ValueIdx

noncomputable section

namespace Cert.Lib

open Idealize.ShloMosaic Idealize.ShloMosaic.ValueIdx

/-- The sum over the leading axis of a rank-3 vector, read at `(r, k)`: the sum over `g` of the entries `(g, r, k)`. -/
theorem sumLead3_apply {n0 n1 n2 : Nat} (src : FVec Ideal ⟨3, ![n0, n1, n2]⟩ .f32)
    (h : (⟨3, ![n0, n1, n2]⟩ : Shape).Reduces [0] ⟨2, ![n1, n2]⟩) (hφ : FKind.Formats .f32)
    (hacc : (0x00000000#32 : BitVec 32) = FKind.add.neutral .f32 hφ) (r : Fin n1) (k : Fin n2) :
    multiReduction .add [0] ⟨2, ![n1, n2]⟩ src 0x00000000#32 h hφ hacc (ix2 r k) = ∑ g : Fin n0, src (ix3 g r k) := by
  refine (Ideal.multiReduction_add_single src _ h hφ hacc (ix2 r k)).trans ?_
  refine Finset.sum_congr rfl fun g _ => congrArg src ?_
  funext a
  match a with
  | ⟨0, _⟩ => rfl
  | ⟨1, _⟩ => rfl
  | ⟨2, _⟩ => rfl

/-- The sum over the leading axis of a rank-2 vector, read at `q`: the sum over `g` of the entries `(g, q)`. -/
theorem sumLead2_apply {n0 n1 : Nat} (src : FVec Ideal ⟨2, ![n0, n1]⟩ .f32)
    (h : (⟨2, ![n0, n1]⟩ : Shape).Reduces [0] ⟨1, ![n1]⟩) (hφ : FKind.Formats .f32)
    (hacc : (0x00000000#32 : BitVec 32) = FKind.add.neutral .f32 hφ) (q : Fin n1) :
    multiReduction .add [0] ⟨1, ![n1]⟩ src 0x00000000#32 h hφ hacc (ix1 q) = ∑ g : Fin n0, src (ix2 g q) := by
  refine (Ideal.multiReduction_add_single src _ h hφ hacc (ix1 q)).trans ?_
  refine Finset.sum_congr rfl fun g _ => congrArg src ?_
  funext a
  match a with
  | ⟨0, _⟩ => rfl
  | ⟨1, _⟩ => rfl

/-! ## A product that contracts the second axis of both operands -/

/-- The left operand's row coordinate is the output's row. -/
theorem lhsT_0 {M K N : Nat} (j : (⟨2, ![M, N]⟩ : Shape).Idx) (k : (DotDims.transposedRhs M K N).contr.Idx) :
    ((DotDims.transposedRhs M K N).lhsIdx j k 0).val = (j 0).val := rfl
/-- The left operand's column coordinate is the contraction coordinate. -/
theorem lhsT_1 {M K N : Nat} (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k
/-- The right operand's row coordinate is the output's column. -/
theorem rhsT_0 {M K N : Nat} (j : (⟨2, ![M, N]⟩ : Shape).Idx) (k : (DotDims.transposedRhs M K N).contr.Idx) :
    ((DotDims.transposedRhs M K N).rhsIdx j k 0).val = (j 1).val := rfl
/-- The right operand's column coordinate is the contraction coordinate. -/
theorem rhsT_1 {M K N : Nat} (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- Into the zero accumulator, such a product read at `(p, q)` is the sum over `k` of `lhs (p, k) * rhs (q, k)`. -/
theorem matmulT_apply {M K N : Nat} {φ₁ φ₂ : FTy} (lhs : FVec Ideal ⟨2, ![M, K]⟩ φ₁) (rhs : FVec Ideal ⟨2, ![N, K]⟩ φ₂)
    (p : Fin M) (q : Fin N) :
    matmul (DotDims.transposedRhs M K N) none lhs rhs (constant (F := Ideal) ⟨2, ![M, N]⟩ .f32 0x00000000#32) (ix2 p q)
      = ∑ k : Fin K, lhs (ix2 p k) * rhs (ix2 q k) := by
  refine (Ideal.matmul_constant_zero_apply (DotDims.transposedRhs M K N) none lhs rhs (ix2 p q)).trans ?_
  rw [← Equiv.sum_comp (contrEquiv1 (DotDims.transposedRhs M K N) K rfl rfl).symm]
  refine Finset.sum_congr rfl fun k _ => ?_
  have hk := contrEquiv1_symm_val (DotDims.transposedRhs M K N) K rfl rfl k
  have hl : (DotDims.transposedRhs M K N).lhsIdx (ix2 p q) ((contrEquiv1 (DotDims.transposedRhs M K N) K rfl rfl).symm k) = ix2 p k := by
    funext a
    match a with
    | ⟨0, _⟩ => exact Fin.ext (lhsT_0 _ _)
    | ⟨1, _⟩ => exact Fin.ext ((lhsT_1 _ _).trans hk)
  have hr : (DotDims.transposedRhs M K N).rhsIdx (ix2 p q) ((contrEquiv1 (DotDims.transposedRhs M K N) K rfl rfl).symm k) = ix2 q k := by
    funext a
    match a with
    | ⟨0, _⟩ => exact Fin.ext (rhsT_0 _ _)
    | ⟨1, _⟩ => exact Fin.ext ((rhsT_1 _ _).trans hk)
  rw [hl, hr]

end Cert.Lib

end
-- ==== Proof.LibDotPlain.lean ====
/-
  A matrix product read at an entry, over the extended reals: a `tpu.matmul` into the zero accumulator whose
  dimension numbers contract axis 1 of the left operand with axis 0 of the right (`DotDims.plain M K N`: lhs [M, K],
  rhs [K, N], out [M, N]), read at `(p, q)`, is `Σ k : Fin K, lhs (p, k) * rhs (k, q)`. A printed record
  `dot_S<M>x<K>_S<K>x<N>_S<M>x<N>_1_0_0_1_n_n` unifies with `DotDims.plain M K N` by unfolding, so the lemma applies to
  a printed payload by `exact` / `refine … .trans`.
-/
import Idealize.ShloMosaic.PureOps.Ideal.Laws
import Idealize.ShloMosaic.Lib.ValueIdx

noncomputable section

namespace Cert.LibDotPlain

open Idealize.ShloMosaic Idealize.ShloMosaic.ValueIdx

/-- The left operand's row coordinate is the output's row. -/
theorem lhsP_0 {M K N : Nat} (j : (⟨2, ![M, N]⟩ : Shape).Idx) (k : (DotDims.plain M K N).contr.Idx) :
    ((DotDims.plain M K N).lhsIdx j k 0).val = (j 0).val := rfl
/-- The left operand's column coordinate is the contraction coordinate. -/
theorem lhsP_1 {M K N : Nat} (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k
/-- The right operand's row coordinate is the contraction coordinate. -/
theorem rhsP_0 {M K N : Nat} (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k
/-- The right operand's column coordinate is the output's column. -/
theorem rhsP_1 {M K N : Nat} (j : (⟨2, ![M, N]⟩ : Shape).Idx) (k : (DotDims.plain M K N).contr.Idx) :
    ((DotDims.plain M K N).rhsIdx j k 1).val = (j 1).val := rfl

/-- Into the zero accumulator, such a product read at `(p, q)` is the sum over `k` of `lhs (p, k) * rhs (k, q)`. -/
theorem matmulPlain_apply {M K N : Nat} {φ₁ φ₂ : FTy} (lhs : FVec Ideal ⟨2, ![M, K]⟩ φ₁) (rhs : FVec Ideal ⟨2, ![K, N]⟩ φ₂)
    (p : Fin M) (q : Fin N) :
    matmul (DotDims.plain M K N) none lhs rhs (constant (F := Ideal) ⟨2, ![M, N]⟩ .f32 0x00000000#32) (ix2 p q)
      = ∑ k : Fin K, lhs (ix2 p k) * rhs (ix2 k q) := by
  refine (Ideal.matmul_constant_zero_apply (DotDims.plain M K N) none lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have hl : (DotDims.plain M K N).lhsIdx (ix2 p q) ((contrEquiv1 (DotDims.plain M K N) K rfl rfl).symm k) = ix2 p k := by
    funext a
    match a with
    | ⟨0, _⟩ => exact Fin.ext (lhsP_0 _ _)
    | ⟨1, _⟩ => exact Fin.ext ((lhsP_1 _ _).trans hk)
  have hr : (DotDims.plain M K N).rhsIdx (ix2 p q) ((contrEquiv1 (DotDims.plain M K N) K rfl rfl).symm k) = ix2 k q := by
    funext a
    match a with
    | ⟨0, _⟩ => exact Fin.ext ((rhsP_0 _ _).trans hk)
    | ⟨1, _⟩ => exact Fin.ext (rhsP_1 _ _)
  rw [hl, hr]

end Cert.LibDotPlain

end
-- ==== Proof.LibLeadAxis.lean ====
/-
  A leading unit axis, and two leading axes merged into one, read at an index:

  * `dropLead_apply` / `addLead_apply`: a [1, a, b] block viewed as [a, b], and back, keeps the entry at (p, q);
  * `mergeLead_apply` / `splitLead_apply`: an [n0, n1, a, b] array viewed as [n0 * n1, a, b] reads, at
    (g * n1 + h, p, q), the entry (g, h, p, q); and the view back reads (g, h, p, q) at (g * n1 + h, p, q).
  All four are shape casts, which keep the row-major position.
-/
import Idealize.ShloMosaic.Lib.Pipeline.Value
import Idealize.ShloMosaic.Lib.ValueIdx

namespace Cert.LibLeadAxis

open Idealize.ShloMosaic Idealize.ShloMosaic.ValueIdx

/-- A [1, a, b] block viewed as an [a, b] matrix reads, at (p, q), the block at (0, p, q). -/
theorem dropLead_apply {α : Type} {a b : ℕ} (x : (⟨3, ![1, a, b]⟩ : Shape).Idx → α)
    (h : (⟨3, ![1, a, b]⟩ : Shape).ShapeCasts ⟨2, ![a, b]⟩) (p : Fin a) (q : Fin b) :
    shapeCast ⟨2, ![a, b]⟩ x h (ix2 p q) = x (ix3 (0 : Fin 1) p q) :=
  shapeCast_apply x h _ _ (by
    rw [Shape.rowMajor_val_three, Shape.rowMajor_val_two]
    show (0 * a + p.val) * b + q.val = p.val * b + q.val
    rw [Nat.zero_mul, Nat.zero_add])

/-- An [a, b] matrix viewed as a [1, a, b] block reads, at (0, p, q), the matrix at (p, q). -/
theorem addLead_apply {α : Type} {a b : ℕ} (x : (⟨2, ![a, b]⟩ : Shape).Idx → α)
    (h : (⟨2, ![a, b]⟩ : Shape).ShapeCasts ⟨3, ![1, a, b]⟩) (p : Fin a) (q : Fin b) :
    shapeCast ⟨3, ![1, a, b]⟩ x h (ix3 (0 : Fin 1) p q) = x (ix2 p q) :=
  shapeCast_apply x h _ _ (by
    rw [Shape.rowMajor_val_three, Shape.rowMajor_val_two]
    show p.val * b + q.val = (0 * a + p.val) * b + q.val
    rw [Nat.zero_mul, Nat.zero_add])

/-- An [n0, n1, a, b] array viewed as [n, a, b] (n = n0 * n1) reads, at (g * n1 + h, p, q), the entry (g, h, p, q). -/
theorem mergeLead_apply {α : Type} {n0 n1 n a b : ℕ} (x : (⟨4, ![n0, n1, a, b]⟩ : Shape).Idx → α)
    (hc : (⟨4, ![n0, n1, a, b]⟩ : Shape).ShapeCasts ⟨3, ![n, a, b]⟩) (g : Fin n0) (h : Fin n1) (gh : Fin n)
    (hgh : gh.val = g.val * n1 + h.val) (p : Fin a) (q : Fin b) :
    shapeCast ⟨3, ![n, a, b]⟩ x hc (ix3 gh p q) = x (ix4 g h p q) :=
  shapeCast_apply x hc _ _ (by
    rw [Shape.rowMajor_val_three, Shape.rowMajor_val_four]
    show ((g.val * n1 + h.val) * a + p.val) * b + q.val = (gh.val * a + p.val) * b + q.val
    rw [hgh])

/-- An [n, a, b] array viewed as [n0, n1, a, b] (n = n0 * n1) reads, at (g, h, p, q), the entry (g * n1 + h, p, q). -/
theorem splitLead_apply {α : Type} {n0 n1 n a b : ℕ} (x : (⟨3, ![n, a, b]⟩ : Shape).Idx → α)
    (hc : (⟨3, ![n, a, b]⟩ : Shape).ShapeCasts ⟨4, ![n0, n1, a, b]⟩) (g : Fin n0) (h : Fin n1) (gh : Fin n)
    (hgh : gh.val = g.val * n1 + h.val) (p : Fin a) (q : Fin b) :
    shapeCast ⟨4, ![n0, n1, a, b]⟩ x hc (ix4 g h p q) = x (ix3 gh p q) :=
  shapeCast_apply x hc _ _ (by
    rw [Shape.rowMajor_val_three, Shape.rowMajor_val_four]
    show (gh.val * a + p.val) * b + q.val = ((g.val * n1 + h.val) * a + p.val) * b + q.val
    rw [hgh])

end Cert.LibLeadAxis
-- ==== Proof.LibRowSum.lean ====
/-
  A sum along the rows of a matrix, read at a row, over the extended reals: a `vector.multi_reduction <add>` over
  axis 1 of an [n0, n1] vector, read at `p`, is the sum over `k` of the entries `(p, k)`.
-/
import Idealize.ShloMosaic.PureOps.Ideal.Laws
import Idealize.ShloMosaic.Lib.ValueIdx

noncomputable section

namespace Cert.LibRowSum

open Idealize.ShloMosaic Idealize.ShloMosaic.ValueIdx

/-- The sum over the trailing axis of a rank-2 vector, read at `p`: the sum over `k` of the entries `(p, k)`. -/
theorem sumLast2_apply {n0 n1 : Nat} (src : FVec Ideal ⟨2, ![n0, n1]⟩ .f32)
    (h : (⟨2, ![n0, n1]⟩ : Shape).Reduces [1] ⟨1, ![n0]⟩) (hφ : FKind.Formats .f32)
    (hacc : (0x00000000#32 : BitVec 32) = FKind.add.neutral .f32 hφ) (p : Fin n0) :
    multiReduction .add [1] ⟨1, ![n0]⟩ src 0x00000000#32 h hφ hacc (ix1 p) = ∑ k : Fin n1, src (ix2 p k) := by
  refine (Ideal.multiReduction_add_single src _ h hφ hacc (ix1 p)).trans ?_
  refine Finset.sum_congr rfl fun k _ => congrArg src ?_
  funext a
  match a with
  | ⟨0, _⟩ => rfl
  | ⟨1, _⟩ => rfl

end Cert.LibRowSum

end
-- ==== Proof.KernelRow.lean ====
/- What the kernel body stores, entry by entry.

   The body loads a [1, 512, 64] block of queries and one head's [1, 2048, 64] keys and values, and stores one
   [1, 512, 64] block. Read over the extended reals, the stored entry (0, p, d) is the row function of the
   specification applied to query row p of the block and to the head's keys and values: the first product
   contracts the 64 entries of a query row with those of a key row, the scale multiplies it, the square is the
   weight, the row sum plus the small constant is kept as a column and spread back over the 2048 columns, the
   quotient is taken entry by entry, and the second product contracts the 2048 key rows against a value column.
   The narrowings to sixteen bits are the identity on extended reals. -/
import proofs.«106438_j61289183314190_1_alg».proof.Proof.Gen.KernelIdeal.Skeleton
import proofs.«106438_j61289183314190_1_alg».proof.Proof.Spec
import proofs.«106438_j61289183314190_1_alg».proof.Proof.LibKeepdims
import proofs.«106438_j61289183314190_1_alg».proof.Proof.LibColBroadcast
import proofs.«106438_j61289183314190_1_alg».proof.Proof.LibLeadSumDotT
import proofs.«106438_j61289183314190_1_alg».proof.Proof.LibDotPlain
import proofs.«106438_j61289183314190_1_alg».proof.Proof.LibLeadAxis
import proofs.«106438_j61289183314190_1_alg».proof.Proof.LibRowSum
import Idealize.ShloMosaic.PureOps.Ideal.Laws
import Idealize.ShloMosaic.Lib.ValueIdx

noncomputable section

namespace Cert.KernelIdeal.Row

open Cert.KernelIdeal Cert.KernelIdeal.Gen Idealize.ShloMosaic Idealize.ShloMosaic.ValueIdx Cert.PowerAttn

/-- Row `p` of a [1, 512, 64] block. -/
abbrev qrow (x0 : Vec Ideal S1x512x64 .f32) (p : Fin 512) : Fin 64 → EReal := fun e => x0 (ix3 (0 : Fin 1) p e)
/-- The rows of a [1, 2048, 64] block. -/
abbrev rows (x : Vec Ideal S1x2048x64 .f32) : Fin 2048 → Fin 64 → EReal := fun m e => x (ix3 (0 : Fin 1) m e)

/-- The block of scaled inner products of the query rows with the key rows. -/
def logits (x0 : Vec Ideal S1x512x64 .f32) (x1 : Vec Ideal S1x2048x64 .f32) : FVec Ideal S512x2048 .f32 :=
  mulf (matmul dot_S512x64_S2048x64_S512x2048_1_1_0_0_n_n none
      (truncf .bf16 (shapeCast S512x64 x0 shapeCasts_S1x512x64_S512x64) bitsLt_bf16_f32)
      (truncf .bf16 (shapeCast S2048x64 x1 shapeCasts_S1x2048x64_S2048x64) bitsLt_bf16_f32)
      (constant S512x2048 .f32 0x00000000#32))
    (broadcast S512x2048 (Scalar.ofBits .f32 0x3E000000#32))

/-- Entry (p, m) of that block is the logit of query row p against key row m. -/
theorem logits_apply (x0 : Vec Ideal S1x512x64 .f32) (x1 : Vec Ideal S1x2048x64 .f32) (p : Fin 512) (m : Fin 2048) :
    logits x0 x1 (ix2 p m) = logit (qrow x0 p) (rows x1) m := by
  unfold logits logit
  refine (mulf_apply _ _ _).trans ?_
  refine congrArg₂ (· * ·) ?_ rfl
  refine (Cert.Lib.matmulT_apply (M := 512) (K := 64) (N := 2048) _ _ p m).trans ?_
  refine Finset.sum_congr rfl fun e _ => ?_
  exact congrArg₂ (· * ·) (Cert.LibLeadAxis.dropLead_apply x0 _ p e) (Cert.LibLeadAxis.dropLead_apply x1 _ m e)

/-- The block of weights: the logits squared. -/
def weights (x0 : Vec Ideal S1x512x64 .f32) (x1 : Vec Ideal S1x2048x64 .f32) : FVec Ideal S512x2048 .f32 :=
  mulf (logits x0 x1) (logits x0 x1)

theorem weights_apply (x0 : Vec Ideal S1x512x64 .f32) (x1 : Vec Ideal S1x2048x64 .f32) (p : Fin 512) (m : Fin 2048) :
    weights x0 x1 (ix2 p m) = weight (qrow x0 p) (rows x1) m := by
  unfold weights weight
  refine (mulf_apply _ _ _).trans ?_
  rw [logits_apply]

/-- The normalizers, one per query row, spread over the 2048 columns. -/
def norms (x0 : Vec Ideal S1x512x64 .f32) (x1 : Vec Ideal S1x2048x64 .f32) : FVec Ideal S512x2048 .f32 :=
  broadcastTo S512x2048
    (addf (shapeCast S512x1 (multiReduction .add [1] S512 (weights x0 x1) 0x00000000#32 reduces_S512x2048_S512 (.inl rfl) rfl)
        shapeCasts_S512_S512x1)
      (broadcast S512x1 (Scalar.ofBits .f32 0x358637BD#32)))
    broadcasts_S512x1_S512x2048

/-- Entry (p, m) of that block is row p's normalizer, whatever the column m. -/
theorem norms_apply (x0 : Vec Ideal S1x512x64 .f32) (x1 : Vec Ideal S1x2048x64 .f32) (p : Fin 512) (m : Fin 2048) :
    norms x0 x1 (ix2 p m) = normalizer (qrow x0 p) (rows x1) := by
  unfold norms normalizer
  refine (Idealize.ShloMosaic.ColBroadcast.broadcastTo_a1_ab_apply _ _ p m).trans ?_
  refine (addf_apply _ _ _).trans ?_
  refine congrArg₂ (· + ·) ?_ rfl
  refine (Idealize.ShloMosaic.Keepdims.shapeCast_a_a1_apply _ _ p (0 : Fin 1)).trans ?_
  refine (Cert.LibRowSum.sumLast2_apply (n0 := 512) (n1 := 2048) _ _ _ _ p).trans ?_
  exact Finset.sum_congr rfl fun k _ => weights_apply x0 x1 p k

/-- The stored value is the second product of the normalized weights with the values, as a [1, 512, 64] block. -/
theorem pay_eq (x0 : Vec Ideal S1x512x64 .f32) (x1 x2 : Vec Ideal S1x2048x64 .f32) :
    k0_pay1 (F := Ideal) x0 x1 x2
      = shapeCast S1x512x64
          (matmul dot_S512x2048_S2048x64_S512x64_1_0_0_1_n_n none
            (truncf .bf16 (divf (weights x0 x1) (norms x0 x1)) bitsLt_bf16_f32)
            (truncf .bf16 (shapeCast S2048x64 x2 shapeCasts_S1x2048x64_S2048x64) bitsLt_bf16_f32)
            (constant S512x64 .f32 0x00000000#32))
          shapeCasts_S512x64_S1x512x64 := rfl

/-- THE STORED ENTRY (0, p, d): the row function at query row p, the head's keys and values, column d. -/
theorem pay_apply (x0 : Vec Ideal S1x512x64 .f32) (x1 x2 : Vec Ideal S1x2048x64 .f32) (p : Fin 512) (d : Fin 64) :
    k0_pay1 (F := Ideal) x0 x1 x2 (ix3 (0 : Fin 1) p d) = row (qrow x0 p) (rows x1) (rows x2) d := by
  rw [pay_eq]
  unfold row
  refine (Cert.LibLeadAxis.addLead_apply _ _ p d).trans ?_
  refine (Cert.LibDotPlain.matmulPlain_apply (M := 512) (K := 2048) (N := 64) _ _ p d).trans ?_
  refine Finset.sum_congr rfl fun m _ => ?_
  refine congrArg₂ (· * ·) ?_ (Cert.LibLeadAxis.dropLead_apply x2 _ m d)
  refine (divf_apply _ _ _).trans ?_
  rw [weights_apply, norms_apply]

end Cert.KernelIdeal.Row

end
-- ==== Proof.KernelArray.lean ====
/- From blocks to the whole array.

   The grid has 256 points: point t works on head g = t / 4 and on query rows r * 512 … r * 512 + 511, r = t % 4. Its
   query block and its output block sit at block index (g, r, 0) of their [64, 2048, 64] arrays, its key and value
   blocks are the whole head g, block index (g, 0, 0). So what point t writes back is block (g, r) of ONE function
   of the three arrays as the region finds them — entry (g, n, d) the row function at query row (g, n) and head g's
   keys and values —, the 256 output blocks tile the array, and after the run the array is that function. -/
import proofs.«106438_j61289183314190_1_alg».proof.Proof.Gen.KernelIdeal.Frame
import proofs.«106438_j61289183314190_1_alg».proof.Proof.KernelRow
import Idealize.ShloMosaic.Lib.Pipeline.Value

set_option maxRecDepth 16384

noncomputable section

namespace Cert.KernelIdeal.Array

open Cert.KernelIdeal Cert.KernelIdeal.Gen Idealize.ShloMosaic Idealize.ShloMosaic.TcCoe Idealize.ShloMosaic.ValueIdx
open Cert.PowerAttn Cert.KernelIdeal.Row
open Idealize.SL.Sem
open Idealize.ShloMosaic.Pipeline (Dat Cfg Window)

variable (m : (ℓ : Loc nD τ sig) → Buf (Elt Ideal) ℓ)

theorem zero_offsets : (![0, 0, 0] : Fin 3 → Nat) = fun _ => 0 := funext fun a => by fin_cases a <;> rfl

/-- The printed index maps, decided over the 256 points: the query window moves with the output window, the key and
    value windows follow its head and stay at row block 0, and the output's block indices stay in range. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 63 ∧ win0_3.index t (1 : Fin 3) ≤ 3 ∧ win0_3.index t (2 : Fin 3) = 0 :=
  (by decide +kernel : ∀ t : Fin grid0.N, _)

/-- Every (head, row block) pair is some point's output block. -/
theorem idx_onto : ∀ (g : Fin 64) (r : Fin 4), ∃ t : Fin cfg0.N, win0_3.index t = ![g.val, r.val, 0] :=
  (by decide +kernel : ∀ (g : Fin 64) (r : Fin 4), ∃ t : Fin grid0.N, win0_3.index t = ![g.val, r.val, 0])

/-- A block of the output from blocks of the inputs, over any three arrays and any placement of the blocks in them
    that puts the query and output blocks at rows r0 … of head g and the key and value blocks at all rows of head g:
    the stored entry is the merged-heads function of the arrays at the entry's place in the output array. -/
theorem block_eq (x0 : Vec Ideal S1x512x64 .f32) (x1 x2 : Vec Ideal S1x2048x64 .f32)
    (A0 A1 A2 : FVec Ideal S64x2048x64 .f32)
    (emb0 emb3 : S1x512x64.Idx → S64x2048x64.Idx) (emb1 emb2 : S1x2048x64.Idx → S64x2048x64.Idx)
    (hx0 : ∀ y, x0 y = A0 (emb0 y)) (hx1 : ∀ y, x1 y = A1 (emb1 y)) (hx2 : ∀ y, x2 y = A2 (emb2 y))
    (g r0 : Nat)
    (e0 : ∀ (z : Fin 1) (p : Fin 512) (e : Fin 64),
      (emb0 (ix3 z p e) 0).val = g ∧ (emb0 (ix3 z p e) 1).val = r0 + p.val ∧ (emb0 (ix3 z p e) 2).val = e.val)
    (e1 : ∀ (z : Fin 1) (k : Fin 2048) (e : Fin 64),
      (emb1 (ix3 z k e) 0).val = g ∧ (emb1 (ix3 z k e) 1).val = k.val ∧ (emb1 (ix3 z k e) 2).val = e.val)
    (e2 : ∀ (z : Fin 1) (k : Fin 2048) (e : Fin 64),
      (emb2 (ix3 z k e) 0).val = g ∧ (emb2 (ix3 z k e) 1).val = k.val ∧ (emb2 (ix3 z k e) 2).val = e.val)
    (e3 : ∀ (z : Fin 1) (p : Fin 512) (e : Fin 64),
      (emb3 (ix3 z p e) 0).val = g ∧ (emb3 (ix3 z p e) 1).val = r0 + p.val ∧ (emb3 (ix3 z p e) 2).val = e.val)
    (y : S1x512x64.Idx) :
    k0_pay1 (F := Ideal) x0 x1 x2 y = heads A0 A1 A2 (emb3 y) := by
  obtain ⟨z, p, d, rfl⟩ : ∃ (z : Fin 1) (p : Fin 512) (d : Fin 64), y = ix3 z p d := ⟨y 0, y 1, y 2, eq_ix3 y⟩
  obtain rfl : z = 0 := Fin.ext (by have := z.isLt; omega)
  obtain ⟨b0, b1, b2⟩ := e3 0 p d
  have hd : emb3 (ix3 0 p d) 2 = d := Fin.ext b2
  have hq : (fun e => A0 (ix3 (emb3 (ix3 0 p d) 0) (emb3 (ix3 0 p d) 1) e)) = qrow x0 p := funext fun e => by
    show A0 _ = x0 (ix3 0 p e)
    rw [hx0]
    refine congrArg A0 (funext fun a => Fin.ext ?_)
    obtain ⟨a0, a1, a2⟩ := e0 0 p e
    match a with
    | ⟨0, _⟩ => exact b0.trans a0.symm
    | ⟨1, _⟩ => exact b1.trans a1.symm
    | ⟨2, _⟩ => exact a2.symm
  have hk : (fun k e => A1 (ix3 (emb3 (ix3 0 p d) 0) k e)) = rows x1 := funext fun k => funext fun e => by
    show A1 _ = x1 (ix3 0 k e)
    rw [hx1]
    refine congrArg A1 (funext fun a => Fin.ext ?_)
    obtain ⟨a0, a1, a2⟩ := e1 0 k e
    match a with
    | ⟨0, _⟩ => exact b0.trans a0.symm
    | ⟨1, _⟩ => exact a1.symm
    | ⟨2, _⟩ => exact a2.symm
  have hv : (fun k e => A2 (ix3 (emb3 (ix3 0 p d) 0) k e)) = rows x2 := funext fun k => funext fun e => by
    show A2 _ = x2 (ix3 0 k e)
    rw [hx2]
    refine congrArg A2 (funext fun a => Fin.ext ?_)
    obtain ⟨a0, a1, a2⟩ := e2 0 k e
    match a with
    | ⟨0, _⟩ => exact b0.trans a0.symm
    | ⟨1, _⟩ => exact a1.symm
    | ⟨2, _⟩ => exact a2.symm
  rw [pay_apply]
  unfold heads
  rw [hq, hk, hv, hd]

/-- Where the query block's entries sit in the query array. -/
theorem place0 (t : Fin cfg0.N) (z : Fin 1) (p : Fin 512) (e : Fin 64) :
    ((((cfg0.win 0).blk t).view.emb (ix3 z p e)) 0).val = win0_3.index t (0 : Fin 3)
    ∧ ((((cfg0.win 0).blk t).view.emb (ix3 z p e)) 1).val = win0_3.index t (1 : Fin 3) * 512 + p.val
    ∧ ((((cfg0.win 0).blk t).view.emb (ix3 z p e)) 2).val = e.val := by
  obtain ⟨f00, f01, f02, -⟩ := idx_facts t
  have hz := z.isLt
  refine ⟨?_, ?_, ?_⟩
  · show win0_0.index t (0 : Fin 3) * 1 + 1 * z.val = _; omega
  · show win0_0.index t (1 : Fin 3) * 512 + 1 * p.val = _; omega
  · show win0_0.index t (2 : Fin 3) * 64 + 1 * e.val = _; omega

/-- Where the key block's entries sit in the key array. -/
theorem place1 (t : Fin cfg0.N) (z : Fin 1) (k : Fin 2048) (e : Fin 64) :
    ((((cfg0.win 1).blk t).view.emb (ix3 z k e)) 0).val = win0_3.index t (0 : Fin 3)
    ∧ ((((cfg0.win 1).blk t).view.emb (ix3 z k e)) 1).val = k.val
    ∧ ((((cfg0.win 1).blk t).view.emb (ix3 z k e)) 2).val = e.val := by
  obtain ⟨-, -, -, f10, f11, f12, -⟩ := idx_facts t
  have hz := z.isLt
  refine ⟨?_, ?_, ?_⟩
  · show win0_1.index t (0 : Fin 3) * 1 + 1 * z.val = _; omega
  · show win0_1.index t (1 : Fin 3) * 2048 + 1 * k.val = _; omega
  · show win0_1.index t (2 : Fin 3) * 64 + 1 * e.val = _; omega

/-- Where the value block's entries sit in the value array. -/
theorem place2 (t : Fin cfg0.N) (z : Fin 1) (k : Fin 2048) (e : Fin 64) :
    ((((cfg0.win 2).blk t).view.emb (ix3 z k e)) 0).val = win0_3.index t (0 : Fin 3)
    ∧ ((((cfg0.win 2).blk t).view.emb (ix3 z k e)) 1).val = k.val
    ∧ ((((cfg0.win 2).blk t).view.emb (ix3 z k e)) 2).val = e.val := by
  obtain ⟨-, -, -, -, -, -, f20, f21, f22, -⟩ := idx_facts t
  have hz := z.isLt
  refine ⟨?_, ?_, ?_⟩
  · show win0_2.index t (0 : Fin 3) * 1 + 1 * z.val = _; omega
  · show win0_2.index t (1 : Fin 3) * 2048 + 1 * k.val = _; omega
  · show win0_2.index t (2 : Fin 3) * 64 + 1 * e.val = _; omega

/-- Where the output block's entries sit in the output array. -/
theorem place3 (t : Fin cfg0.N) (z : Fin 1) (p : Fin 512) (e : Fin 64) :
    ((((cfg0.win 3).blk t).view.emb (ix3 z p e)) 0).val = win0_3.index t (0 : Fin 3)
    ∧ ((((cfg0.win 3).blk t).view.emb (ix3 z p e)) 1).val = win0_3.index t (1 : Fin 3) * 512 + p.val
    ∧ ((((cfg0.win 3).blk t).view.emb (ix3 z p e)) 2).val = e.val := by
  obtain ⟨-, -, -, -, -, -, -, -, -, -, -, f32⟩ := idx_facts t
  have hz := z.isLt
  refine ⟨?_, ?_, ?_⟩
  · show win0_3.index t (0 : Fin 3) * 1 + 1 * z.val = _; omega
  · show win0_3.index t (1 : Fin 3) * 512 + 1 * p.val = _; omega
  · show win0_3.index t (2 : Fin 3) * 64 + 1 * e.val = _; omega

/-- WHAT POINT t WRITES BACK is block t of the merged-heads function of the three arrays as the region finds them. -/
theorem flushed_eq (c : Dev nD) (t : Fin cfg0.N) :
    (dats m 0 c).flushed 3 t
      = ((cfg0.win 3).blk t).view.read (Elt Ideal) (heads (V m c main_v0) (V m c main_v1) (V m c main_v2)) := by
  show (cfg0.win 3).cut (grid0.coords t) ((dats m 0 c).after 3 t) = _
  rw [after0_3]
  unfold out0_3
  rw [View.canon_unit_zero zero_offsets]
  simp only [View.ld_unit_zero (S := S1x512x64) zero_offsets, View.ld_unit_zero (S := S1x2048x64) zero_offsets]
  funext j
  show k0_pay1 (F := Ideal) (iblk m c 0 t) (iblk m c 1 t) (iblk m c 2 t) j
    = heads (V m c main_v0) (V m c main_v1) (V m c main_v2) (((cfg0.win 3).blk t).view.emb j)
  exact block_eq (iblk m c 0 t) (iblk m c 1 t) (iblk m c 2 t) (V m c main_v0) (V m c main_v1) (V m c main_v2)
    ((cfg0.win 0).blk t).view.emb ((cfg0.win 3).blk t).view.emb ((cfg0.win 1).blk t).view.emb ((cfg0.win 2).blk t).view.emb
    (fun _ => rfl) (fun _ => rfl) (fun _ => rfl)
    (win0_3.index t (0 : Fin 3)) (win0_3.index t (1 : Fin 3) * 512)
    (place0 t) (place1 t) (place2 t) (place3 t) j

/-- An index of the output array is in point t's block iff each coordinate is in the block's range on its axis. -/
theorem mem_blk (t : Fin cfg0.N) (i : S64x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v3).slice (win0_3.rect t)).set ↔ _
  rw [View.set_slice_whole, Rect.mem_set_unit]
  exact Iff.rfl

/-- The 256 output blocks cover the array: entry (g, n, d) is in the block of the point at (g, n / 512). -/
theorem cover (i : S64x2048x64.Idx) :
    ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- THE OUTPUT ARRAY after the run is the merged-heads function of the three arrays as the region finds them. -/
theorem final (c : Dev nD) :
    (dats m 0 c).arrAt 3 cfg0.N = heads (V m c main_v0) (V m c main_v1) (V m c main_v2) :=
  (dats m 0 c).arrAt_eq_of_cover 3 _ (fun t _ => flushed_eq m c t) cover

end Cert.KernelIdeal.Array

end
-- ==== Proof.SpecMerge.lean ====
/- Merging batch and head into one axis does not change the function: over [4, 16, 2048, 64] arrays viewed as
   [64, 2048, 64] (head g = b * 16 + h), the merged-heads result at (g, n, d) is the result at (b, h, n, d). -/
import proofs.«106438_j61289183314190_1_alg».proof.Proof.Spec
import proofs.«106438_j61289183314190_1_alg».proof.Proof.LibLeadAxis

noncomputable section

namespace Cert.PowerAttn

open Idealize.ShloMosaic Idealize.ShloMosaic.ValueIdx

theorem heads_merged (Q K V : (⟨4, ![4, 16, 2048, 64]⟩ : Shape).Idx → EReal)
    (hc : (⟨4, ![4, 16, 2048, 64]⟩ : Shape).ShapeCasts ⟨3, ![64, 2048, 64]⟩)
    (b : Fin 4) (h : Fin 16) (g : Fin 64) (hg : g.val = b.val * 16 + h.val) (n : Fin 2048) (d : Fin 64) :
    heads (shapeCast ⟨3, ![64, 2048, 64]⟩ Q hc) (shapeCast ⟨3, ![64, 2048, 64]⟩ K hc) (shapeCast ⟨3, ![64, 2048, 64]⟩ V hc)
        (ix3 g n d)
      = attn Q K V (ix4 b h n d) := by
  unfold heads attn
  show row (fun e => shapeCast ⟨3, ![64, 2048, 64]⟩ Q hc (ix3 g n e)) (fun m e => shapeCast ⟨3, ![64, 2048, 64]⟩ K hc (ix3 g m e))
      (fun m e => shapeCast ⟨3, ![64, 2048, 64]⟩ V hc (ix3 g m e)) d
    = row (fun e => Q (ix4 b h n e)) (fun m e => K (ix4 b h m e)) (fun m e => V (ix4 b h m e)) d
  have hq : (fun e => shapeCast ⟨3, ![64, 2048, 64]⟩ Q hc (ix3 g n e)) = fun e => Q (ix4 b h n e) :=
    funext fun e => Cert.LibLeadAxis.mergeLead_apply Q hc b h g hg n e
  have hk : (fun m e => shapeCast ⟨3, ![64, 2048, 64]⟩ K hc (ix3 g m e)) = fun m e => K (ix4 b h m e) :=
    funext fun m => funext fun e => Cert.LibLeadAxis.mergeLead_apply K hc b h g hg m e
  have hv : (fun m e => shapeCast ⟨3, ![64, 2048, 64]⟩ V hc (ix3 g m e)) = fun m e => V (ix4 b h m e) :=
    funext fun m => funext fun e => Cert.LibLeadAxis.mergeLead_apply V hc b h g hg m e
  rw [hq, hk, hv]

end Cert.PowerAttn

end
-- ==== Proof.KernelRun.lean ====
/- The kernel program's run with its result named.

   Before the region three reshapes view each [4, 16, 2048, 64] argument as [64, 2048, 64]; after it one reshape
   views the [64, 2048, 64] output as [4, 16, 2048, 64]. The region leaves the merged-heads function of the three
   views in its output array, and merging batch and head does not change the function, so the program's result is
   the specification's function of its three arguments. -/
import proofs.«106438_j61289183314190_1_alg».proof.Proof.KernelArray
import proofs.«106438_j61289183314190_1_alg».proof.Proof.SpecMerge
import Idealize.ShloMosaic.Lib.StableHlo.Run

noncomputable section

namespace Cert.KernelIdeal.Run

open Cert.KernelIdeal Cert.KernelIdeal.Gen Idealize.ShloMosaic Idealize.ShloMosaic.TcCoe Idealize.ShloMosaic.ValueIdx
open Idealize.ShloMosaic.StableHlo
open Cert.PowerAttn
open Idealize.SL.Sem

variable (m : (ℓ : Loc nD τ sig) → Buf (Elt Ideal) ℓ) (ρ : Dev nD → PrngReg)

/-- The region finds the query array as the first argument viewed [64, 2048, 64]. -/
theorem V_q (c : Dev nD) : (V m c main_v0 : S64x2048x64.Idx → EReal)
    = shapeCast S64x2048x64 (m ((c : Thread nD τ).loc main_arg0)) shapeCasts_S4x16x2048x64_S64x2048x64 := by
  show StableHlo.after hostOps0 (fun b => m (c, b)) (Proc.devRef .tc main_v0) = _
  after_results
  rfl
/-- The key array: the second argument viewed [64, 2048, 64]. -/
theorem V_k (c : Dev nD) : (V m c main_v1 : S64x2048x64.Idx → EReal)
    = shapeCast S64x2048x64 (m ((c : Thread nD τ).loc main_arg1)) shapeCasts_S4x16x2048x64_S64x2048x64 := by
  show StableHlo.after hostOps0 (fun b => m (c, b)) (Proc.devRef .tc main_v1) = _
  after_results
  rfl
/-- The value array: the third argument viewed [64, 2048, 64]. -/
theorem V_v (c : Dev nD) : (V m c main_v2 : S64x2048x64.Idx → EReal)
    = shapeCast S64x2048x64 (m ((c : Thread nD τ).loc main_arg2)) shapeCasts_S4x16x2048x64_S64x2048x64 := by
  show StableHlo.after hostOps0 (fun b => m (c, b)) (Proc.devRef .tc main_v2) = _
  after_results
  rfl

/-- The program's result after the closing reshape: the specification's function of the three arguments. -/
theorem result_eq (c : Dev nD) :
    (Pipeline.afterTail₀ cfgs (dats m) 0 (V0 m) [hostOps1] c main_v4 : S4x16x2048x64.Idx → EReal)
      = attn (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have harr := (Pipeline.withArrays_arr spec0 launch0.win.arr_inj c (V0 m c) (fun w => (dats m 0 c).arrAt w cfg0.N) 3).trans
    (Cert.KernelIdeal.Array.final m c)
  funext i
  obtain ⟨b, h, n, d, rfl⟩ : ∃ (b : Fin 4) (h : Fin 16) (n : Fin 2048) (d : Fin 64), i = ix4 b h n d :=
    ⟨i 0, i 1, i 2, i 3, eq_ix4 i⟩
  have hb := b.isLt
  have hh := h.isLt
  refine (Cert.LibLeadAxis.splitLead_apply _ shapeCasts_S64x2048x64_S4x16x2048x64 b h
    ⟨b.val * 16 + h.val, by omega⟩ rfl n d).trans ?_
  rw [harr, V_q, V_k, V_v]
  exact heads_merged _ _ _ shapeCasts_S4x16x2048x64_S64x2048x64 b h ⟨b.val * 16 + h.val, by omega⟩ rfl n d

/-- THE RUN: every weakly fair execution of the kernel program terminates with its result at the specification's function of
    the arguments, the arguments unchanged. -/
theorem run : θ_run defs (onTc (τ := τ) (main (F := Ideal))) ⟨m, fun _ => 0, ρ⟩ fun r => ∀ c : Dev nD,
      r.2.mem ((c.tc : Thread nD τ).loc main_v4)
        = attn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.RefValue.lean ====
/- The reference, entry by entry.

   The reference contracts queries with keys per batch and head, scales, squares, sums each row into a kept column,
   adds the small constant, divides entry by entry and contracts with the values. Read one operation at a time over
   the extended reals, its entry (b, h, n, d) is the row function of the specification at query row (b, h, n) and
   head (b, h)'s keys and values; the only arithmetic step is that the host's sum starts from the zero word,
   which is the extended real 0. -/
import proofs.«106438_j61289183314190_1_alg».proof.Proof.Gen.ReferenceIdeal.Read
import proofs.«106438_j61289183314190_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.PowerAttn

abbrev Arr := (⟨S4x16x2048x64, .f32⟩ : BufTy).Contents (Elt Ideal)

/-- The query row (b, h, n) of an argument array. -/
abbrev qrowOf (x : Arr) (b : Fin 4) (h : Fin 16) (n : Fin 2048) : Fin 64 → EReal := fun e => x (ix4 b h n e)
/-- The rows of head (b, h) of an argument array. -/
abbrev headOf (x : Arr) (b : Fin 4) (h : Fin 16) : Fin 2048 → Fin 64 → EReal := fun k e => x (ix4 b h k e)

/-! The composed index functions of the generated stages, at an index given by its coordinates. -/

theorem lidx0 (b : Fin 4) (h : Fin 16) (n k : Fin 2048) (e : Fin 64) : lidx_main_v0 (ix4 b h n k) e = ix4 b h n e :=
  funext fun a => Fin.ext (by match a with | ⟨0, _⟩ => rfl | ⟨1, _⟩ => rfl | ⟨2, _⟩ => rfl | ⟨3, _⟩ => rfl)
theorem ridx0 (b : Fin 4) (h : Fin 16) (n k : Fin 2048) (e : Fin 64) : ridx_main_v0 (ix4 b h n k) e = ix4 b h k e :=
  funext fun a => Fin.ext (by match a with | ⟨0, _⟩ => rfl | ⟨1, _⟩ => rfl | ⟨2, _⟩ => rfl | ⟨3, _⟩ => rfl)
theorem idx4 (b : Fin 4) (h : Fin 16) (n k : Fin 2048) : idx_main_v4 (ix3 b h n) k = ix4 b h n k :=
  funext fun a => Fin.ext (by match a with | ⟨0, _⟩ => rfl | ⟨1, _⟩ => rfl | ⟨2, _⟩ => rfl | ⟨3, _⟩ => rfl)
theorem idx5 (b : Fin 4) (h : Fin 16) (n : Fin 2048) (z : Fin 1) : idx_main_v5 (ix4 b h n z) = ix3 b h n :=
  funext fun a => Fin.ext (by match a with | ⟨0, _⟩ => rfl | ⟨1, _⟩ => rfl | ⟨2, _⟩ => rfl)
theorem idx8 (b : Fin 4) (h : Fin 16) (n k : Fin 2048) : idx_main_v8 (ix4 b h n k) = ix4 b h n (0 : Fin 1) :=
  funext fun a => Fin.ext (by match a with | ⟨0, _⟩ => rfl | ⟨1, _⟩ => rfl | ⟨2, _⟩ => rfl | ⟨3, _⟩ => rfl)
theorem lidx10 (b : Fin 4) (h : Fin 16) (n : Fin 2048) (d : Fin 64) (k : Fin 2048) :
    lidx_main_v10 (ix4 b h n d) k = ix4 b h n k :=
  funext fun a => Fin.ext (by match a with | ⟨0, _⟩ => rfl | ⟨1, _⟩ => rfl | ⟨2, _⟩ => rfl | ⟨3, _⟩ => rfl)
theorem ridx10 (b : Fin 4) (h : Fin 16) (n : Fin 2048) (d : Fin 64) (k : Fin 2048) :
    ridx_main_v10 (ix4 b h n d) k = ix4 b h k d :=
  funext fun a => Fin.ext (by match a with | ⟨0, _⟩ => rfl | ⟨1, _⟩ => rfl | ⟨2, _⟩ => rfl | ⟨3, _⟩ => rfl)

/-- The scaled product at (b, h, n, k) is the logit of query row (b, h, n) against key row k of head (b, h). -/
theorem logit_at (x0 x1 : Arr) (b : Fin 4) (h : Fin 16) (n k : Fin 2048) :
    val_main_v2 (F := Ideal) x0 x1 (ix4 b h n k) = logit (qrowOf x0 b h n) (headOf x1 b h) k := by
  rw [val_main_v2_apply, val_main_v0_apply, val_main_v1_apply, val_main_cst_apply]
  simp only [lidx0, ridx0, Ideal.mulf_def, Ideal.ofBits_def]
  rfl

/-- Its square is the weight. -/
theorem weight_at (x0 x1 : Arr) (b : Fin 4) (h : Fin 16) (n k : Fin 2048) :
    val_main_v3 (F := Ideal) x0 x1 (ix4 b h n k) = weight (qrowOf x0 b h n) (headOf x1 b h) k := by
  rw [val_main_v3_apply, logit_at, Ideal.mulf_def]
  rfl

/-- The kept column plus the small constant, spread over the columns, is the row's normalizer. -/
theorem normalizer_at (x0 x1 : Arr) (b : Fin 4) (h : Fin 16) (n k : Fin 2048) :
    val_main_v8 (F := Ideal) x0 x1 (ix4 b h n k) = normalizer (qrowOf x0 b h n) (headOf x1 b h) := by
  rw [val_main_v8_apply, idx8, val_main_v7_apply, val_main_v5_apply, idx5, val_main_v4_apply, val_main_v6_apply,
    val_main_cst_1_apply, val_main_cst_0_apply]
  simp only [idx4, weight_at, Ideal.addf_def, Ideal.ofBits_def, Ideal.ofBits_zero_f32, zero_add]
  rfl

/-- THE REFERENCE'S RESULT is the specification's function of the three argument arrays. -/
theorem ref_eq (x0 x1 x2 : Arr) : val_main_v10 (F := Ideal) x0 x1 x2 = attn x0 x1 x2 := by
  funext i
  obtain ⟨b, h, n, d, rfl⟩ : ∃ (b : Fin 4) (h : Fin 16) (n : Fin 2048) (d : Fin 64), i = ix4 b h n d :=
    ⟨i 0, i 1, i 2, i 3, eq_ix4 i⟩
  rw [val_main_v10_apply]
  unfold attn row
  refine Finset.sum_congr rfl fun k _ => ?_
  rw [lidx10, ridx10, val_main_v9_apply, weight_at, normalizer_at, Ideal.hostDivf_def]

end Cert.ReferenceIdeal.RefValue

end
-- ==== Proof.lean ====
/- Power attention with exponent 2: for queries q, keys k and values v of shape [4, 16, 2048, 64], the output entry
   (b, h, n, d) is

       Σ_m  w(n, m) / (Σ_m' w(n, m') + ε) · v(b, h, m, d),     w(n, m) = ((Σ_e q(b, h, n, e) · k(b, h, m, e)) · 1/8)²,

   with ε the single-precision word nearest 10⁻⁶ and 1/8 exact. The kernel computes it per head and per tile of
   512 query rows, with the whole head's keys and values at hand; the reference computes it with two batched
   contractions. Over the extended reals the two perform the same operations on the same words in the same order
   (the kernel's narrowings to sixteen bits are the identity there, its products into a zero accumulator and its
   row sum are plain sums, and the reference's sum starts from the zero word), so both results are ONE function of
   the arguments, `Cert.PowerAttn.attn`: no law of arithmetic beyond 0 + x = x is used, and the finiteness of the
   inputs is never opened.

   The kernel side: the stored entry of the body is the row function (KernelRow), the 256 output blocks tile the
   [64, 2048, 64] array (KernelArray), and the reshapes around the region merge and split batch and head without
   changing the function (SpecMerge, KernelRun). The reference side: its fourteen operations read one at a time at
   an index (RefValue). The three frames are the generated ones, and the kernel's idealization rewrote nothing. -/
import proofs.«106438_j61289183314190_1_alg».proof.Defs
import proofs.«106438_j61289183314190_1_alg».proof.Proof.Gen.Kernel
import proofs.«106438_j61289183314190_1_alg».proof.Proof.Gen.Kernel.Frame
import proofs.«106438_j61289183314190_1_alg».proof.Proof.Gen.KernelIdeal
import proofs.«106438_j61289183314190_1_alg».proof.Proof.Gen.KernelIdeal.Frame
import proofs.«106438_j61289183314190_1_alg».proof.Proof.Gen.ReferenceIdeal
import proofs.«106438_j61289183314190_1_alg».proof.Proof.Gen.ReferenceIdeal.Run
import proofs.«106438_j61289183314190_1_alg».proof.Proof.Gen.ReferenceIdeal.Read
import proofs.«106438_j61289183314190_1_alg».proof.Proof.Gen.Pre_finite_inputs
import proofs.«106438_j61289183314190_1_alg».proof.Proof.KernelRun
import proofs.«106438_j61289183314190_1_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification's function of their arguments, and the arguments agree. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v10_eq _ _ _).trans ((Cert.ReferenceIdeal.RefValue.ref_eq _ _ _).trans ?_)
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
